-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S10000x64 : Shape := ⟨2, ![10000, 64]⟩
abbrev S1x64 : Shape := ⟨2, ![1, 64]⟩

abbrev nBuf : Space → Nat
  | .hbm => 54
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000x1, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S64x64, .f32⟩
  | .hbm, ⟨53, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v35) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000x1, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_call2_v0 : Ref sig .tc := ⟨.hbm, 42, rfl⟩
abbrev main_call2_v1 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The dense stage of the graph-convolution layer, as one function of its three arrays.

  Given the aggregated node features `a` (100000 nodes, 64 features each), the weight matrix `w` (64 outputs by
  64 inputs, stored output-major) and the bias `b`, the layer's result at node `p` and output feature `q` is

      max( Σₖ a[p, k] · w[q, k] + b[q] , 0 )

  over the extended reals: a linear map by the transposed weights, a bias, and a rectifier. Both programs compute
  this function of the same aggregated features; the sum runs over the 64 input features in their natural order.
-/
import Idealize.ShloMosaic.PureOps.Ideal
import Idealize.ShloMosaic.Lib.ValueIdx

noncomputable section

open scoped BigOperators

namespace Cert.Dense

open Idealize.ShloMosaic Idealize.ShloMosaic.ValueIdx

/-- Node features: 100000 rows of 64. -/
abbrev SNodes : Shape := ⟨2, ![100000, 64]⟩
/-- The weight matrix, output feature by input feature. -/
abbrev SWeight : Shape := ⟨2, ![64, 64]⟩
/-- The bias, one entry per output feature. -/
abbrev SBias : Shape := ⟨1, ![64]⟩

/-- The layer's result at node `p` and output feature `q`: the rectified affine image of row `p`. -/
def linAt (a : FVec Ideal SNodes .f32) (w : FVec Ideal SWeight .f32) (b : FVec Ideal SBias .f32)
    (p : Fin 100000) (q : Fin 64) : Ideal .f32 :=
  max ((∑ k : Fin 64, a (ix2 p k) * w (ix2 q k)) + b (ix1 q)) (Ideal.ofBits .f32 0x00000000#32)

/-- The layer's result as a whole array. -/
def lin (a : FVec Ideal SNodes .f32) (w : FVec Ideal SWeight .f32) (b : FVec Ideal SBias .f32) :
    FVec Ideal SNodes .f32 :=
  fun i => linAt a w b (i 0) (i 1)

/-- At an index given by its coordinates the array reads the pointwise formula. -/
theorem lin_apply (a : FVec Ideal SNodes .f32) (w : FVec Ideal SWeight .f32) (b : FVec Ideal SBias .f32)
    (p : Fin 100000) (q : Fin 64) : lin a w b (ix2 p q) = linAt a w b p q := rfl

end Cert.Dense

end
-- ==== Proof.RefIsDense.lean ====
/-
  The reference's result is the dense stage applied to the reference's own aggregated features.

  After the aggregation the reference multiplies by the transposed weights (a contraction of the features'
  second axis with the transposed matrix's first), adds the bias laid out as one row and repeated down the rows,
  and takes the maximum with a zero array. Read at node `p` and output feature `q` this is
  max( Σₖ agg[p, k] · W[q, k] + b[q] , 0 ): the transposed matrix at (k, q) is the weight matrix at (q, k).
-/
import proofs.«149000_j74491912781904_1_alg».proof.Proof.RefRead
import proofs.«149000_j74491912781904_1_alg».proof.Proof.Spec

noncomputable section

open scoped BigOperators

namespace Cert.ReferenceIdeal.Dense

open Cert.ReferenceIdeal Cert.ReferenceIdeal.ReadCopy Idealize.ShloMosaic Idealize.ShloMosaic.ValueIdx Cert.Dense

/-- The contraction reads the aggregated features at row `p`, column `k`. -/
theorem lidx_eq (p : Fin 100000) (q k : Fin 64) : lidx_main_v48 (ix2 p q) k = ix2 p k :=
  funext fun a => Fin.ext (by match a with | ⟨0, _⟩ => rfl | ⟨1, _⟩ => rfl)

/-- The transposed weights at (k, q) are the weights at (q, k). -/
theorem ridx_eq (p : Fin 100000) (q k : Fin 64) : idx_main_v47 (ridx_main_v48 (ix2 p q) k) = ix2 q k :=
  funext fun a => Fin.ext (by match a with | ⟨0, _⟩ => rfl | ⟨1, _⟩ => rfl)

/-- The bias repeated down the rows reads the bias at the column. -/
theorem bidx_eq (p : Fin 100000) (q : Fin 64) : idx_main_v49 (idx_main_v50 (ix2 p q)) = ix1 q :=
  funext fun a => Fin.ext (by match a with | ⟨0, _⟩ => rfl)

/-- The reference's result array is the dense stage of its aggregated features, the weights and the bias. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) :
    val_main_v52 (F := Ideal) x0 x1 x2 x3 = lin (val_main_v46 (F := Ideal) x0 x1) x2 x3 := by
  funext i
  obtain ⟨p, q, rfl⟩ : ∃ (p : Fin 100000) (q : Fin 64), i = ix2 p q := ⟨i 0, i 1, eq_ix2 i⟩
  rw [lin_apply, val_main_v52_apply, val_main_v51_apply, val_main_v48_apply, val_main_v50_apply, val_main_v49_apply,
    val_main_call3_v0_apply, val_main_call3_cst_apply]
  simp only [val_main_v47_apply, lidx_eq, ridx_eq, bidx_eq]
  rfl

end Cert.ReferenceIdeal.Dense

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.Payload.lean ====
/-
  The kernel body's arithmetic read at one entry of a row tile.

  For a tile `x` of 10000 rows of aggregated features, the transposed weights `wt` (input feature by output
  feature) and the bias `b`, the value the body stores at row `r` and output feature `q` of the tile is

      max( Σₖ x[r, k] · wt[k, q] + b[q] , 0 ).

  On the extended reals the two narrowings to bfloat16 are the identity, the matrix product into an accumulator
  of zeros is the plain sum over the 64 input features, the bias row is broadcast down the rows, and the
  rectifier is the maximum with the zero word's value.
-/
import proofs.«149000_j74491912781904_1_alg».proof.Proof.Gen.KernelIdeal.Skeleton
import proofs.«149000_j74491912781904_1_alg».proof.Proof.LibPlainDot
import proofs.«149000_j74491912781904_1_alg».proof.Proof.LibMatrixReads
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The printed contraction record is the plain "rows by columns" one. -/
theorem dot_eq_plain : dot_S10000x64_S64x64_S10000x64_1_0_0_1_n_n = DotDims.plain 10000 64 64 := rfl

/-- The stored value at row `r`, output feature `q` of a tile. -/
theorem pay_apply (x : Vec Ideal S10000x64 .f32) (wt : Vec Ideal S64x64 .f32) (b : Vec Ideal S64 .f32)
    (r : Fin 10000) (q : Fin 64) :
    k0_pay1 (F := Ideal) x wt b (ix2 r q)
      = max ((∑ k : Fin 64, x (ix2 r k) * wt (ix2 k q)) + b (ix1 q)) (Ideal.ofBits .f32 0x00000000#32) := by
  unfold k0_pay1
  rw [maximumf_apply, addf_apply, broadcast_apply]
  refine congrArg₂ max (congrArg₂ (· + ·) ?_ ?_) rfl
  · rw [shapeCast_self, shapeCast_self]
    exact PlainDot.matmul_zero_apply 10000 64 64 none _ _ r q
  · exact (MatrixReads.rowBroadcast_apply 10000 64 _ _ r q).trans (MatrixReads.rowOfVec_apply 64 b _ q)

end Cert.KernelIdeal.Tile

end
-- ==== Proof.HostArrays.lean ====
/-
  What the kernel region finds in its operand arrays.

  Before the region the program aggregates the node features on the host — degrees by a scatter-add of ones,
  the inverse square root of the positive degrees, a gather of the source rows scaled by the source's factor, a
  scatter-add into the destination rows, a final scaling by the destination's factor — and transposes the
  weight matrix. The reference performs the same aggregation, operation for operation, so the first operand array
  is the reference's aggregated-features stage of the same two arguments; the second operand array at (k, q) is
  the weight matrix at (q, k).
-/
import proofs.«149000_j74491912781904_1_alg».proof.Proof.Gen.KernelIdeal.Frame
import proofs.«149000_j74491912781904_1_alg».proof.Proof.RefRead
import proofs.«149000_j74491912781904_1_alg».proof.Proof.LibMatrixReads
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

set_option maxHeartbeats 4000000 in
/-- The aggregated features the region reads are the reference's aggregation of the same features and edges. -/
theorem agg_eq (c : Dev nD) :
    (V m c main_v35 : S100000x64.Idx → Elt F .f32)
      = Cert.ReferenceIdeal.ReadCopy.val_main_v46 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  rfl

/-- The second operand array is the transposed weight matrix. -/
theorem wt_eq (c : Dev nD) :
    (V m c main_v36 : S64x64.Idx → Elt F .f32)
      = transpose S64x64 [1, 0] (m ((c : Thread nD τ).loc main_arg2)) Facts₀.transposes_S64x64_S64x64_1_0 := by
  dsimp only [V]
  simp only [hostOps0, hostOps0_1, hostOps0_2, List.flatten_cons, List.flatten_nil, List.append_nil, List.cons_append,
    List.nil_append]
  after_results

/-- Read at input feature `k` and output feature `q` it is the weight matrix at (q, k). -/
theorem wt_apply (c : Dev nD) (k q : Fin 64) :
    (V m c main_v36 : S64x64.Idx → Elt F .f32) (ix2 k q) = (m ((c : Thread nD τ).loc main_arg2) : S64x64.Idx → Elt F .f32) (ix2 q k) := by
  rw [wt_eq]
  exact MatrixReads.transpose2_apply 64 64 _ _ k q

end Cert.KernelIdeal.Host

end
-- ==== Proof.Tiles.lean ====
/-
  The tiles the kernel region reads and writes, entry by entry.

  The region walks the 100000 nodes in ten tiles of 10000 rows. Row `r` of tile `t` is row 10000·t + r of the
  array: the features' tile and the result's tile move together down the rows, while the transposed weights and the
  bias are read whole at every tile.
-/
import proofs.«149000_j74491912781904_1_alg».proof.Proof.Gen.KernelIdeal.Frame
import proofs.«149000_j74491912781904_1_alg».proof.Proof.HostArrays
import proofs.«149000_j74491912781904_1_alg».proof.Proof.Spec

noncomputable section

open scoped BigOperators

namespace Cert.KernelIdeal.Dense

open Cert.KernelIdeal Cert.KernelIdeal.Gen Idealize.ShloMosaic Idealize.ShloMosaic.TcCoe Idealize.SL.Sem
open Idealize.ShloMosaic.Pipeline (Dat)
open Idealize.ShloMosaic.ValueIdx Cert.Dense

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The index maps over the ten tiles: the features' tile moves with the result's, down the rows only; the
    weights and the bias stay at their one block; the result's row-block index is at most 9. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every row block of the result is some tile's. -/
theorem idx_onto : ∀ b : Fin 10, ∃ t : Fin cfg0.N, win0_3.index t = ![b.val, 0] :=
  (by decide +kernel : ∀ b : Fin 10, ∃ t : Fin grid0.N, win0_3.index t = ![b.val, 0])

/-- Row `r` of tile `t`, as a row of the whole array. -/
def row (t : Fin cfg0.N) (r : Fin 10000) : Fin 100000 :=
  ⟨win0_3.index t (0 : Fin 2) * 10000 + r.val, by
    have h := (idx_facts t).2.2.2.2.2.2
    have hr := r.isLt
    omega⟩

/-- The result array the kernel leaves: the dense stage of the aggregated features the region finds, the
    weights and the bias. -/
def result (c : Dev nD) : FVec Ideal S100000x64 .f32 :=
  lin (V m c main_v35) (m ((c : Thread nD τ).loc main_arg2)) (m ((c : Thread nD τ).loc main_arg3))

/-- A tile of ANY array of node features, read at (r, k), is the array at (10000·t + r, k). -/
theorem tile_read (X : FVec Ideal S100000x64 .f32) (t : Fin cfg0.N) (r : Fin 10000) (k : Fin 64) :
    (((cfg0.win 0).blk t).view.read (Elt Ideal) X : Vec Ideal S10000x64 .f32) (ix2 r k) = X (ix2 (row t r) k) := by
  show X (((cfg0.win 0).blk t).view.emb (ix2 r k)) = _
  refine congrArg X (funext fun a => Fin.ext ?_)
  obtain ⟨e0, e1, -⟩ := idx_facts t
  match a with
  | ⟨0, _⟩ => show win0_0.index t (0 : Fin 2) * 10000 + 1 * r.val = win0_3.index t (0 : Fin 2) * 10000 + r.val; omega
  | ⟨1, _⟩ => show win0_0.index t (1 : Fin 2) * 64 + 1 * k.val = k.val; omega

/-- The features' tile at (r, k) is the array the region finds at (10000·t + r, k). -/
theorem tile_apply (c : Dev nD) (t : Fin cfg0.N) (r : Fin 10000) (k : Fin 64) :
    (iblk m c 0 t : Vec Ideal S10000x64 .f32) (ix2 r k) = (V m c main_v35 : FVec Ideal S100000x64 .f32) (ix2 (row t r) k) := by
  unfold iblk
  exact tile_read (V m c main_v35) t r k

/-- The one block of ANY 64 by 64 array is the whole array. -/
theorem weights_read (X : FVec Ideal S64x64 .f32) (t : Fin cfg0.N) (k q : Fin 64) :
    (((cfg0.win 1).blk t).view.read (Elt Ideal) X : Vec Ideal S64x64 .f32) (ix2 k q) = X (ix2 k q) := by
  show X (((cfg0.win 1).blk t).view.emb (ix2 k q)) = _
  refine congrArg X (funext fun a => Fin.ext ?_)
  obtain ⟨-, -, e2, e3, -⟩ := idx_facts t
  match a with
  | ⟨0, _⟩ => show win0_1.index t (0 : Fin 2) * 64 + 1 * k.val = k.val; omega
  | ⟨1, _⟩ => show win0_1.index t (1 : Fin 2) * 64 + 1 * q.val = q.val; omega

/-- The transposed weights' block is the whole transposed matrix the region finds. -/
theorem weights_apply (c : Dev nD) (t : Fin cfg0.N) (k q : Fin 64) :
    (iblk m c 1 t : Vec Ideal S64x64 .f32) (ix2 k q) = (V m c main_v36 : FVec Ideal S64x64 .f32) (ix2 k q) := by
  unfold iblk
  exact weights_read (V m c main_v36) t k q

/-- The one block of ANY 64-entry vector is the whole vector. -/
theorem bias_read (X : FVec Ideal S64 .f32) (t : Fin cfg0.N) (q : Fin 64) :
    (((cfg0.win 2).blk t).view.read (Elt Ideal) X : Vec Ideal S64 .f32) (ix1 q) = X (ix1 q) := by
  show X (((cfg0.win 2).blk t).view.emb (ix1 q)) = _
  refine congrArg X (funext fun a => Fin.ext ?_)
  obtain ⟨-, -, -, -, e4, -⟩ := idx_facts t
  match a with
  | ⟨0, _⟩ => show win0_2.index t (0 : Fin 1) * 64 + 1 * q.val = q.val; omega

/-- The bias' block is the whole bias, as launched: no host operation writes it. -/
theorem bias_apply (c : Dev nD) (t : Fin cfg0.N) (q : Fin 64) :
    (iblk m c 2 t : Vec Ideal S64 .f32) (ix1 q) = (m ((c : Thread nD τ).loc main_arg3) : FVec Ideal S64 .f32) (ix1 q) := by
  unfold iblk
  refine (bias_read (V m c main_arg3) t q).trans ?_
  rw [V_main_arg3 m c]

/-- Entry (r, q) of the result's tile `t` is entry (10000·t + r, q) of the array. -/
theorem out_emb (t : Fin cfg0.N) (r : Fin 10000) (q : Fin 64) :
    ((cfg0.win 3).blk t).view.emb (ix2 r q) = (ix2 (row t r) q : S100000x64.Idx) := by
  funext a
  apply Fin.ext
  obtain ⟨-, -, -, -, -, e5, -⟩ := idx_facts t
  match a with
  | ⟨0, _⟩ => show win0_3.index t (0 : Fin 2) * 10000 + 1 * r.val = win0_3.index t (0 : Fin 2) * 10000 + r.val; omega
  | ⟨1, _⟩ => show win0_3.index t (1 : Fin 2) * 64 + 1 * q.val = q.val; omega

end Cert.KernelIdeal.Dense

end
-- ==== Proof.KernelValue.lean ====
/-
  The kernel's result array, as one function of the arguments.

  The region walks the 100000 nodes in ten tiles of 10000 rows. At tile `t` it reads rows
  10000·t … 10000·t + 9999 of the aggregated features, the whole transposed weight matrix and the whole bias, and
  writes back the same rows of the result. Row `r` of tile `t` is row 10000·t + r of the array, so what tile `t`
  writes is the restriction to its rows of the dense stage applied to the aggregated features, the weights and
  the bias; the ten tiles cover every row (row `i` lies in tile `i / 10000`), so the result array is that function.
-/
import proofs.«149000_j74491912781904_1_alg».proof.Proof.Gen.KernelIdeal.Value
import proofs.«149000_j74491912781904_1_alg».proof.Proof.Payload
import proofs.«149000_j74491912781904_1_alg».proof.Proof.Tiles

noncomputable section

open scoped BigOperators

namespace Cert.KernelIdeal.Dense

open Cert.KernelIdeal Cert.KernelIdeal.Gen Idealize.ShloMosaic Idealize.ShloMosaic.TcCoe Idealize.SL.Sem
open Idealize.ShloMosaic.Pipeline (Dat)
open Idealize.ShloMosaic.ValueIdx Cert.Dense

variable (m : (ℓ : Loc nD τ sig) → Buf (Elt Ideal) ℓ) (ρ : Dev nD → PrngReg)

/-- For ANY arrays: if a tile `x` holds rows 10000·t … of the features `A`, `wt` is the transpose of the weights `W`
    and `b` is the bias `B`, then what the body leaves in the result's buffer, read through the result's block, is the
    restriction to tile `t`'s rows of the dense stage of `A`, `W`, `B`. -/
theorem tile_result (A : FVec Ideal S100000x64 .f32) (W : FVec Ideal S64x64 .f32) (B : FVec Ideal S64 .f32)
    (x : Vec Ideal S10000x64 .f32) (wt : Vec Ideal S64x64 .f32) (b : Vec Ideal S64 .f32) (t : Fin cfg0.N)
    (hx : ∀ (r : Fin 10000) (k : Fin 64), x (ix2 r k) = A (ix2 (row t r) k))
    (hw : ∀ k q : Fin 64, wt (ix2 k q) = W (ix2 q k))
    (hb : ∀ q : Fin 64, b (ix1 q) = B (ix1 q)) :
    (cfg0.win 3).cut (grid0.coords t) (out0_3 x wt b) = ((cfg0.win 3).blk t).view.read (Elt Ideal) (lin A W B) := by
  unfold out0_3
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  show k0_pay1 (F := Ideal) x wt b (ix2 r q) = lin A W B (((cfg0.win 3).blk t).view.emb (ix2 r q))
  rw [out_emb t r q, lin_apply]
  refine (Tile.pay_apply x wt b r q).trans ?_
  unfold linAt
  exact congrArg₂ max (congrArg₂ (· + ·)
    (Finset.sum_congr rfl fun k _ => congrArg₂ (· * ·) (hx r k) (hw k q)) (hb q)) rfl

/-- What tile `t` writes back is the restriction of `result` to its rows. -/
theorem flushed_eq (c : Dev nD) (t : Fin cfg0.N) :
    (dats m 0 c).flushed 3 t = ((cfg0.win 3).blk t).view.read (Elt Ideal) (result m c) := by
  rw [Value.flushed3]
  unfold result
  exact tile_result (V m c main_v35) (m ((c : Thread nD τ).loc main_arg2)) (m ((c : Thread nD τ).loc main_arg3))
    (iblk m c 0 t) (iblk m c 1 t) (iblk m c 2 t) t (tile_apply m c t)
    (fun k q => (weights_apply m c t k q).trans (Host.wt_apply m c k q)) (bias_apply m c t)

/-- An index is in tile `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v37).slice (win0_3.rect t)).set ↔ _
  rw [View.set_slice_whole, Rect.mem_set_unit]
  exact Iff.rfl

/-- The ten tiles cover the array: row `i` lies in tile `i / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- So the result array ends holding `result`. -/
theorem final (c : Dev nD) : (dats m 0 c).arrAt 3 cfg0.N = result m c :=
  (dats m 0 c).arrAt_eq_of_cover 3 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Dense

end
-- ==== Proof.lean ====
/-
  A graph-convolution layer: degree-normalised neighbourhood aggregation, then a linear map, a bias and a rectifier.

  Both programs first aggregate the node features over the edges on the host, by the same operations in the same
  order: the in-degree of every node (a scatter-add of ones over the destination indices), its inverse square root
  where the degree is positive and zero elsewhere, the source rows gathered and scaled by the source's factor,
  scatter-added into the destination rows, and scaled by the destination's factor. Call the result `agg`. The kernel
  then computes, tile of 10000 rows by tile, max(agg · Wᵀ + b, 0) with the operands narrowed to bfloat16 before the
  product; the reference computes max(agg · Wᵀ + b, 0) by a host contraction. On the extended reals the narrowing
  is the identity and both products are the same sum over the 64 input features, so both results are the one
  function `Cert.Dense.lin agg W b`; the aggregation is never opened, only recognised as the same function of the
  same two arguments. No law used needs finiteness: the precondition is not opened.

  The kernel's and the idealized kernel's runs are the generated frame; the reference's run is its list of host
  operations read back. The idealization rewrote nothing, so the preservation claim has no conjunct.
-/
import proofs.«149000_j74491912781904_1_alg».proof.Defs
import proofs.«149000_j74491912781904_1_alg».proof.Proof.Gen.Kernel
import proofs.«149000_j74491912781904_1_alg».proof.Proof.Gen.Kernel.Skeleton
import proofs.«149000_j74491912781904_1_alg».proof.Proof.Gen.Kernel.Launch
import proofs.«149000_j74491912781904_1_alg».proof.Proof.Gen.Kernel.Points
import proofs.«149000_j74491912781904_1_alg».proof.Proof.Gen.Kernel.Frame
import proofs.«149000_j74491912781904_1_alg».proof.Proof.Gen.KernelIdeal
import proofs.«149000_j74491912781904_1_alg».proof.Proof.Gen.KernelIdeal.Skeleton
import proofs.«149000_j74491912781904_1_alg».proof.Proof.Gen.KernelIdeal.Launch
import proofs.«149000_j74491912781904_1_alg».proof.Proof.Gen.KernelIdeal.Points
import proofs.«149000_j74491912781904_1_alg».proof.Proof.Gen.KernelIdeal.Frame
import proofs.«149000_j74491912781904_1_alg».proof.Proof.Gen.ReferenceIdeal
import proofs.«149000_j74491912781904_1_alg».proof.Proof.Gen.Pre_finite_inputs
import proofs.«149000_j74491912781904_1_alg».proof.Proof.Gen.KernelIdeal.Value
import proofs.«149000_j74491912781904_1_alg».proof.Proof.RefRun
import proofs.«149000_j74491912781904_1_alg».proof.Proof.RefRead
import proofs.«149000_j74491912781904_1_alg».proof.Proof.RefIsDense
import proofs.«149000_j74491912781904_1_alg».proof.Proof.KernelValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.RunCopy.run (F := Ideal) m ρ)

/-- From memories that agree on the four arguments both programs end with the dense stage of the same aggregated
    features, weights and bias: the kernel's array tile by tile, the reference's by its contraction read entry by
    entry, and the two aggregations one function of the features and the edges. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v52_eq, Cert.ReferenceIdeal.Dense.result_eq,
    (hagree c).1, (hagree c).2.1, (hagree c).2.2.1, (hagree c).2.2.2]
  unfold Cert.KernelIdeal.Dense.result
  beta_reduce
  rw [Cert.KernelIdeal.Host.agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
